-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x256 : Shape := ⟨2, ![8192, 256]⟩
abbrev S8192 : Shape := ⟨1, ![8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_arg5 : FVec F S8192 .f32) (main_v13 : IVec S_ 1) (main_v16 : IVec S8192x256 1) : IVec S_ 1 :=
  let main_c_5 : IVec S_ 1 := constantI S_ 1 1#1
  let main_v17 : IVec S_ 1 := (fun x v => Host.reduce IntOp.andi x v reducesTo_S8192x256_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S8192 .f32 := Host.absf main_arg5
  let main_cst_8 : FVec F S_ .f32 := constant S_ .f32 0x7F800000#32
  let main_v25 : FVec F S8192 .f32 := broadcastInDim S8192 ![] bcast_S_S8192 main_cst_8
  let main_v26 : IVec S8192 1 := cmpf .olt main_v24 main_v25
  let main_c_9 : IVec S_ 1 := constantI S_ 1 1#1
  let main_v27 : IVec S_ 1 := (fun x v => Host.reduce IntOp.andi x v reducesTo_S8192_S_d0 h_S_) main_v26 main_c_9
  let main_v28 : IVec S_ 1 := andi main_v23 main_v27
  main_v28

def fn {F : FTy → Type} [FloatOps F] (main_arg0 : FVec F S8192x8192 .f32) (main_arg1 : FVec F S8192x8192 .f32) (main_arg2 : FVec F S8192x256 .f32) (main_arg3 : FVec F S8192x256 .f32) (main_arg4 : FVec F S8192 .f32) (main_arg5 : FVec F S8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  let main_v14 : FVec F S8192x256 .f32 := Host.absf main_arg3
  let main_cst_4 : FVec F S_ .f32 := constant S_ .f32 0x7F800000#32
  let main_v15 : FVec F S8192x256 .f32 := broadcastInDim S8192x256 ![] bcast_S_S8192x256 main_cst_4
  let main_v16 : IVec S8192x256 1 := cmpf .olt main_v14 main_v15
  fn_part1 (F := F) main_arg4 main_arg5 main_v13 main_v16
-- ==== Kernel.lean ====
abbrev S8192x8192 : Shape := ⟨2, ![8192, 8192]⟩
abbrev S8192x256 : Shape := ⟨2, ![8192, 256]⟩
abbrev S8192 : Shape := ⟨1, ![8192]⟩
abbrev S1x8192 : Shape := ⟨2, ![1, 8192]⟩
abbrev S1x1 : Shape := ⟨2, ![1, 1]⟩
abbrev S512x256 : Shape := ⟨2, ![512, 256]⟩
abbrev S1024x256 : Shape := ⟨2, ![1024, 256]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S_ : Shape := ⟨0, ![]⟩

abbrev nBuf : Space → Nat
  | .hbm => 12
  | .vmem => 14
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x256, .f32⟩
  | .hbm, ⟨3, _⟩ => ⟨S8192x256, .f32⟩
  | .hbm, ⟨4, _⟩ => ⟨S8192, .f32⟩
  | .hbm, ⟨5, _⟩ => ⟨S8192, .f32⟩
  | .hbm, ⟨6, _⟩ => ⟨S8192x256, .bf16⟩
  | .hbm, ⟨7, _⟩ => ⟨S8192x256, .bf16⟩
  | .hbm, ⟨8, _⟩ => ⟨S1x8192, .f32⟩
  | .hbm, ⟨9, _⟩ => ⟨S1x8192, .f32⟩
  | .hbm, ⟨10, _⟩ => ⟨S1x1, .f32⟩
  | .hbm, ⟨11, _⟩ => ⟨S_, .f32⟩
  | .local _ .vmem, ⟨0, _⟩ => ⟨S512x256, .bf16⟩
  | .local _ .vmem, ⟨1, _⟩ => ⟨S512x256, .bf16⟩
  | .local _ .vmem, ⟨2, _⟩ => ⟨S1024x256, .bf16⟩
  | .local _ .vmem, ⟨3, _⟩ => ⟨S1024x256, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1, .f32⟩
  | .local _ .vmem, ⟨13, _⟩ => ⟨S1x1, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg0 : BitVec 32 := BitVec.ofNat 32 (i 0).val
  let c15_i32 : BitVec 32 := 15#32
  let v32 : BitVec 1 := Scalar.cmpi .eq arg0 c15_i32
  let arg1 : BitVec 32 := BitVec.ofNat 32 (i 1).val
  let c7_i32 : BitVec 32 := 7#32
  let v33 : BitVec 1 := Scalar.cmpi .eq arg1 c7_i32
  let v34 : BitVec 1 := Scalar.andi v32 v33
  let v35 : BitVec 32 := Scalar.extui v34
  let c0_i32_19 : BitVec 32 := 0#32
  let v36 : BitVec 1 := Scalar.cmpi .ne v35 c0_i32_19
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

class Facts₀ : Prop where
  bitsLt_bf16_f32 : FTy.bits .bf16 < FTy.bits .f32
  shapeCasts_S8192_S1x8192 : S8192.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  reduces_S512x1_S1 : S512x1.Reduces [0] S1
  shapeCasts_S1_S1x1 : S1.ShapeCasts S1x1
  shapeCasts_S1x1_S_ : S1x1.ShapeCasts S_
  dot_S512x256_S1024x256_S512x1024_1_1_0_0_n_n_wf : DotDims.WF S512x256 S1024x256 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .bf16 = 32 ∨ (Rect.block (s := S8192x256) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x8192.size a
  hwx0_4 : ∀ i : grid0.Coords, EltTy.bits .f32 = 32 ∨ (Rect.block (s := S8192x8192) S512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x8192.size a
  hwx0_5 : ∀ i : grid0.Coords, EltTy.bits .f32 = 32 ∨ (Rect.block (s := S8192x8192) S512x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

def dot_S512x256_S1024x256_S512x1024_1_1_0_0_n_n : DotDims S512x256 S1024x256 S512x1024 where
  lhsContracting := [1]
  rhsContracting := [1]
  lhsNonContracting := [0]
  rhsNonContracting := [0]
  lhsBatch := []
  rhsBatch := []
  wf := dot_S512x256_S1024x256_S512x1024_1_1_0_0_n_n_wf

abbrev win0_0 : Pipeline.Window sig grid0 :=
  Pipeline.Window.ofSpec (Memref.whole main_v0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S512x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg0) S512x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x256 : Shape := ⟨2, ![8192, 256]⟩
abbrev S8192 : Shape := ⟨1, ![8192]⟩
abbrev S1x8192 : Shape := ⟨2, ![1, 8192]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x256, .f32⟩
  | .hbm, ⟨3, _⟩ => ⟨S8192x256, .f32⟩
  | .hbm, ⟨4, _⟩ => ⟨S8192, .f32⟩
  | .hbm, ⟨5, _⟩ => ⟨S8192, .f32⟩
  | .hbm, ⟨6, _⟩ => ⟨S8192x8192, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S_, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  reducesTo_S8192x8192_S_d0_1 : S8192x8192.ReducesTo [0, 1] S_
  h_S_ : 0 < S_.numel
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.Pieces.lean ====
/-
  What each control case of the kernel's body leaves behind, as values.

  The body runs in one of three cases: at the grid's first point it first resets its 1 × 1 accumulator; at every point
  it adds the point's block contribution to the accumulator; at the last point it also copies the accumulator into the
  output's staging buffer.  The generated frame records, per case, the list of stores each buffer ends with.  Here those
  lists are read back as plain values over the body's two stored terms (the reset value and the update value, the latter
  a function of the six input blocks and of what the accumulator held):

    first point : the accumulator ends at  update(blocks, reset)       — the update's load sees the reset just stored;
    middle point: the accumulator ends at  update(blocks, previous);
    last point  : the accumulator ends at  update(blocks, previous), and the output buffer holds the same value, since
                  the copy loads the accumulator after the update was stored.

  Every load and store goes through the whole buffer at zero offsets, so one store's read-back is its payload and a load
  of a whole input buffer is the block it holds.  The statements hold at any float instance.
-/
import proofs.«126361_j42872363549012_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- First point: the accumulator ends at the update applied to the reset value. -/
theorem scratch_first (c : Dev nD) (i : grid0.Coords) (arg2 : Memref sig .tc .vmem S512x256 .bf16) (harg2 : arg2.IsWhole) (arg3 : Memref sig .tc .vmem S1024x256 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i) (x0 : Vec F S512x256 .bf16) (x1 : Vec F S1024x256 .bf16) (x2 : Vec F S1x1024 .f32) (x3 : Vec F S1x1024 .f32) (x4 : Vec F S512x1024 .f32) (x5 : Vec F S512x1024 .f32) :
    sout0_A_0 c i arg2 harg2 arg3 harg3 arg4 harg4 arg5 harg5 arg6 harg6 arg7 harg7 arg8 harg8 arg9 harg9 hc0 hc1 x0 x1 x2 x3 x4 x5 = k0_pay2 x0 x1 x2 x3 x4 x5 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg5.read_unread, harg6.read_unread,
    harg7.read_unread, harg9.read_unread, View.ld_unit_zero (S := S512x256) hz, View.ld_unit_zero (S := S1024x256) hz,
    View.ld_unit_zero (S := S1x1024) hz, View.ld_unit_zero (S := S512x1024) hz, View.ld_unit_zero (S := S1x1) hz]

/-- A middle point: the accumulator ends at the update applied to what it held. -/
theorem scratch_middle (c : Dev nD) (i : grid0.Coords) (arg2 : Memref sig .tc .vmem S512x256 .bf16) (harg2 : arg2.IsWhole) (arg3 : Memref sig .tc .vmem S1024x256 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i) (x0 : Vec F S512x256 .bf16) (x1 : Vec F S1024x256 .bf16) (x2 : Vec F S1x1024 .f32) (x3 : Vec F S1x1024 .f32) (x4 : Vec F S512x1024 .f32) (x5 : Vec F S512x1024 .f32) (xs0 : Vec F S1x1 .f32) :
    sout0_B_0 c i arg2 harg2 arg3 harg3 arg4 harg4 arg5 harg5 arg6 harg6 arg7 harg7 arg8 harg8 arg9 harg9 hc0 hc1 x0 x1 x2 x3 x4 x5 xs0 = k0_pay2 x0 x1 x2 x3 x4 x5 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero (S := S1x1) hz]
  simp only [View.readAt_eq_ld, harg2.read_unread, harg3.read_unread, harg4.read_unread, harg5.read_unread, harg6.read_unread,
    harg7.read_unread, harg9.read_unread, View.ld_unit_zero (S := S512x256) hz, View.ld_unit_zero (S := S1024x256) hz,
    View.ld_unit_zero (S := S1x1024) hz, View.ld_unit_zero (S := S512x1024) hz, View.ld_unit_zero (S := S1x1) hz]

/-- The last point: the accumulator ends at the update applied to what it held, -/
theorem scratch_last (c : Dev nD) (i : grid0.Coords) (arg2 : Memref sig .tc .vmem S512x256 .bf16) (harg2 : arg2.IsWhole) (arg3 : Memref sig .tc .vmem S1024x256 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S512x256 .bf16) (x1 : Vec F S1024x256 .bf16) (x2 : Vec F S1x1024 .f32) (x3 : Vec F S1x1024 .f32) (x4 : Vec F S512x1024 .f32) (x5 : Vec F S512x1024 .f32) (xs0 : Vec F S1x1 .f32) :
    sout0_C_0 c i arg2 harg2 arg3 harg3 arg4 harg4 arg5 harg5 arg6 harg6 arg7 harg7 arg8 harg8 arg9 harg9 hc0 hc1 x0 x1 x2 x3 x4 x5 xs0 = k0_pay2 x0 x1 x2 x3 x4 x5 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero (S := S1x1) hz]
  simp only [View.readAt_eq_ld, harg2.read_unread, harg3.read_unread, harg4.read_unread, harg5.read_unread, harg6.read_unread,
    harg7.read_unread, harg9.read_unread, View.ld_unit_zero (S := S512x256) hz, View.ld_unit_zero (S := S1024x256) hz,
    View.ld_unit_zero (S := S1x1024) hz, View.ld_unit_zero (S := S512x1024) hz, View.ld_unit_zero (S := S1x1) hz]

/-- and the output's staging buffer holds the same value: the copy reads the accumulator after the update. -/
theorem out_last (c : Dev nD) (i : grid0.Coords) (arg2 : Memref sig .tc .vmem S512x256 .bf16) (harg2 : arg2.IsWhole) (arg3 : Memref sig .tc .vmem S1024x256 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S512x256 .bf16) (x1 : Vec F S1024x256 .bf16) (x2 : Vec F S1x1024 .f32) (x3 : Vec F S1x1024 .f32) (x4 : Vec F S512x1024 .f32) (x5 : Vec F S512x1024 .f32) (xs0 : Vec F S1x1 .f32) :
    out0_C_6 c i arg2 harg2 arg3 harg3 arg4 harg4 arg5 harg5 arg6 harg6 arg7 harg7 arg8 harg8 arg9 harg9 hc0 hc1 x0 x1 x2 x3 x4 x5 xs0 = k0_pay2 x0 x1 x2 x3 x4 x5 xs0 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero (S := S1x1) hz, View.readCov_unit_zero (S := S1x1) _ hz]
  simp only [View.readAt_eq_ld, harg2.read_unread, harg3.read_unread, harg4.read_unread, harg5.read_unread, harg6.read_unread,
    harg7.read_unread, harg9.read_unread, View.ld_unit_zero (S := S512x256) hz, View.ld_unit_zero (S := S1024x256) hz,
    View.ld_unit_zero (S := S1x1024) hz, View.ld_unit_zero (S := S512x1024) hz, View.ld_unit_zero (S := S1x1) hz]

end Cert.KernelIdeal.Pieces

end
-- ==== Proof.Payload.lean ====
/-
  What the kernel's body stores into its 1 × 1 accumulator, read at the ideal instance.

  At one grid point the body holds a 512 × 256 block `w` of word rows, a 1024 × 256 block `wc` of context rows, the
  1 × 1024 slices `b`, `bc` of the two bias vectors, and the 512 × 1024 blocks `x` (counts) and `xw` (weights).  It
  forms the 512 × 1024 score block `w · wcᵀ` (a contraction over the 256 features into a zero accumulator, so at
  `Ideal` just the sum of products), adds the row `b + bc` to every row of it, subtracts `log x` entrywise, squares,
  multiplies by `xw`, sums every row over its 1024 lanes and then the 512 row sums, and adds the result to what the
  accumulator held.  At `Ideal` every step is the exact operation on the extended reals, the casts between layouts only
  rename indices, and the two lane reductions start from the additive identity, so the stored value is
      acc + ∑ₚ ∑_q xw[p,q] · (r[p,q] · r[p,q]),   r[p,q] = ∑ₖ w[p,k]·wc[q,k] + (b[q] + bc[q]) − log x[p,q].
  The reset stores the zero word, which at `Ideal` is the extended real 0.
-/
import proofs.«126361_j42872363549012_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-! ## The score block: a contraction over the feature axis of both operands -/

theorem lhs_0 (i : S512x1024.Idx) (k : dot_S512x256_S1024x256_S512x1024_1_1_0_0_n_n.contr.Idx) :
    (dot_S512x256_S1024x256_S512x1024_1_1_0_0_n_n.lhsIdx i k 0).val = (i 0).val := by
  unfold DotDims.lhsIdx
  rw [dif_neg (show ¬(0 : Fin S512x256.rank) ∈ dot_S512x256_S1024x256_S512x1024_1_1_0_0_n_n.lhsBatch by decide), dif_pos (show (0 : Fin S512x256.rank) ∈ dot_S512x256_S1024x256_S512x1024_1_1_0_0_n_n.lhsNonContracting by decide)]
  rfl
theorem lhs_1 (i : S512x1024.Idx) (k : dot_S512x256_S1024x256_S512x1024_1_1_0_0_n_n.contr.Idx) :
    (dot_S512x256_S1024x256_S512x1024_1_1_0_0_n_n.lhsIdx i k 1).val = (k ⟨0, by decide⟩).val :=
  dot_S512x256_S1024x256_S512x1024_1_1_0_0_n_n.lhsIdx_val_of_single rfl i k
theorem rhs_0 (i : S512x1024.Idx) (k : dot_S512x256_S1024x256_S512x1024_1_1_0_0_n_n.contr.Idx) :
    (dot_S512x256_S1024x256_S512x1024_1_1_0_0_n_n.rhsIdx i k 0).val = (i 1).val := by
  unfold DotDims.rhsIdx
  rw [dif_neg (show ¬(0 : Fin S1024x256.rank) ∈ dot_S512x256_S1024x256_S512x1024_1_1_0_0_n_n.rhsBatch by decide), dif_pos (show (0 : Fin S1024x256.rank) ∈ dot_S512x256_S1024x256_S512x1024_1_1_0_0_n_n.rhsNonContracting by decide)]
  rfl
theorem rhs_1 (i : S512x1024.Idx) (k : dot_S512x256_S1024x256_S512x1024_1_1_0_0_n_n.contr.Idx) :
    (dot_S512x256_S1024x256_S512x1024_1_1_0_0_n_n.rhsIdx i k 1).val = (k ⟨0, by decide⟩).val :=
  dot_S512x256_S1024x256_S512x1024_1_1_0_0_n_n.rhsIdx_val_of_single rfl i k

/-- Entry (p, q) of the score block is the inner product of row `p` of `w` with row `q` of `wc`. -/
theorem scores_at (w : FVec Ideal S512x256 .bf16) (wc : FVec Ideal S1024x256 .bf16) (p : Fin 512) (q : Fin 1024) :
    matmul dot_S512x256_S1024x256_S512x1024_1_1_0_0_n_n none w wc (constant S512x1024 .f32 0x00000000#32) (ix2 p q)
      = ∑ k : Fin 256, w (ix2 p k) * wc (ix2 q k) := by
  simp only [matmul]
  rw [Ideal.matmul_constant_zero_apply, ← Equiv.sum_comp (contrEquiv1 dot_S512x256_S1024x256_S512x1024_1_1_0_0_n_n 256 rfl rfl).symm]
  refine Finset.sum_congr rfl fun k _ => ?_
  have hk := contrEquiv1_symm_val dot_S512x256_S1024x256_S512x1024_1_1_0_0_n_n 256 rfl rfl k
  have el : dot_S512x256_S1024x256_S512x1024_1_1_0_0_n_n.lhsIdx (ix2 p q) ((contrEquiv1 dot_S512x256_S1024x256_S512x1024_1_1_0_0_n_n 256 rfl rfl).symm k) = ix2 p k := funext fun a => Fin.ext (by
    match a with
    | ⟨0, _⟩ => exact lhs_0 _ _
    | ⟨1, _⟩ => exact (lhs_1 _ _).trans hk)
  have er : dot_S512x256_S1024x256_S512x1024_1_1_0_0_n_n.rhsIdx (ix2 p q) ((contrEquiv1 dot_S512x256_S1024x256_S512x1024_1_1_0_0_n_n 256 rfl rfl).symm k) = ix2 q k := funext fun a => Fin.ext (by
    match a with
    | ⟨0, _⟩ => exact rhs_0 _ _
    | ⟨1, _⟩ => exact (rhs_1 _ _).trans hk)
  rw [el, er]

/-! ## The two lane reductions and the casts between them -/

/-- Summing a 512 × 1024 block along its rows: at row `p`, the sum of that row's 1024 lanes. -/
theorem rowsum_at (v : FVec Ideal S512x1024 .f32) (p : Fin 512) :
    multiReduction .add [1] S512 v 0x00000000#32 reduces_S512x1024_S512 (.inl rfl) rfl (ix1 p)
      = ∑ q : Fin 1024, v (ix2 p q) := by
  refine (Ideal.multiReduction_add_single v _ reduces_S512x1024_S512 (.inl rfl) rfl (ix1 p)).trans ?_
  refine Finset.sum_congr rfl fun q _ => congrArg v (funext fun a => Fin.ext ?_)
  match a with
  | ⟨0, _⟩ => rfl
  | ⟨1, _⟩ => rfl

/-- Summing the 512 × 1 column of row sums: the sum of its 512 entries. -/
theorem colsum_at (v : FVec Ideal S512x1 .f32) :
    multiReduction .add [0] S1 v 0x00000000#32 reduces_S512x1_S1 (.inl rfl) rfl (ix1 (0 : Fin 1))
      = ∑ p : Fin 512, v (ix2 p (0 : Fin 1)) := by
  refine (Ideal.multiReduction_add_single v _ reduces_S512x1_S1 (.inl rfl) rfl (ix1 (0 : Fin 1))).trans ?_
  refine Finset.sum_congr rfl fun p _ => congrArg v (funext fun a => Fin.ext ?_)
  match a with
  | ⟨0, _⟩ => rfl
  | ⟨1, _⟩ => rfl

/-- A length-512 vector laid out as a 512 × 1 column keeps entry `p` at (p, 0). -/
theorem column_at (v : FVec Ideal S512 .f32) (p : Fin 512) :
    shapeCast S512x1 v shapeCasts_S512_S512x1 (ix2 p (0 : Fin 1)) = v (ix1 p) := by
  refine shapeCast_apply v shapeCasts_S512_S512x1 _ (ix1 p) ?_
  rw [Shape.rowMajor_val_one, Shape.rowMajor_val_two]
  show p.val = p.val * 1 + 0
  omega

/-- A length-1 vector laid out as 1 × 1 keeps its entry. -/
theorem unit_at (v : FVec Ideal S1 .f32) (y : S1x1.Idx) :
    shapeCast S1x1 v shapeCasts_S1_S1x1 y = v (ix1 (0 : Fin 1)) := by
  refine shapeCast_apply v shapeCasts_S1_S1x1 _ (ix1 (0 : Fin 1)) ?_
  rw [Shape.rowMajor_val_one, Shape.rowMajor_val_two]
  have h0 : (y 0).val < 1 := (y 0).isLt
  have h1 : (y 1).val < 1 := (y 1).isLt
  show 0 = (y 0).val * 1 + (y 1).val
  omega

/-! ## The stored value -/

/-- The residual at entry (p, q) of the block: score plus the two biases (summed first) minus the logarithm of the count. -/
def resid (w : FVec Ideal S512x256 .bf16) (wc : FVec Ideal S1024x256 .bf16) (b bc : FVec Ideal S1x1024 .f32)
    (x : FVec Ideal S512x1024 .f32) (p : Fin 512) (q : Fin 1024) : EReal :=
  (∑ k : Fin 256, w (ix2 p k) * wc (ix2 q k)) + (b (ix2 (0 : Fin 1) q) + bc (ix2 (0 : Fin 1) q)) - Ideal.log (x (ix2 p q))

/-- The block's contribution to the loss: its weighted squared residuals, summed. -/
def blockLoss (w : FVec Ideal S512x256 .bf16) (wc : FVec Ideal S1024x256 .bf16) (b bc : FVec Ideal S1x1024 .f32)
    (x xw : FVec Ideal S512x1024 .f32) : EReal :=
  ∑ p : Fin 512, ∑ q : Fin 1024, xw (ix2 p q) * (resid w wc b bc x p q * resid w wc b bc x p q)

/-- The reset's value: the extended real zero at the accumulator's one index. -/
theorem pay1_eq : (k0_pay1 (F := Ideal)) = fun _ => (0 : EReal) := by
  funext y
  unfold k0_pay1
  simp only [shapeCast_self]
  show Ideal.ofBits .f32 0x00000000#32 = 0
  exact Ideal.ofBits_zero_f32

/-- The update's value: what the accumulator held plus the block's contribution. -/
theorem pay2_eq (w : FVec Ideal S512x256 .bf16) (wc : FVec Ideal S1024x256 .bf16) (b bc : FVec Ideal S1x1024 .f32)
    (x xw : FVec Ideal S512x1024 .f32) (acc : FVec Ideal S1x1 .f32) :
    k0_pay2 w wc b bc x xw acc = fun y => acc y + blockLoss w wc b bc x xw := by
  funext y
  unfold k0_pay2
  simp only [shapeCast_self]
  show acc y + shapeCast S1x1 _ shapeCasts_S1_S1x1 y = _
  refine congrArg (acc y + ·) ?_
  rw [unit_at, colsum_at]
  unfold blockLoss
  refine Finset.sum_congr rfl fun p _ => ?_
  rw [column_at, rowsum_at]
  refine Finset.sum_congr rfl fun q _ => ?_
  show xw (ix2 p q) * ((matmul dot_S512x256_S1024x256_S512x1024_1_1_0_0_n_n none w wc (constant S512x1024 .f32 0x00000000#32) (ix2 p q)
      + broadcastTo S512x1024 (addf b bc) broadcasts_S1x1024_S512x1024 (ix2 p q) - Ideal.log (x (ix2 p q)))
    * (matmul dot_S512x256_S1024x256_S512x1024_1_1_0_0_n_n none w wc (constant S512x1024 .f32 0x00000000#32) (ix2 p q)
      + broadcastTo S512x1024 (addf b bc) broadcasts_S1x1024_S512x1024 (ix2 p q) - Ideal.log (x (ix2 p q)))) = _
  rw [scores_at, broadcastTo_1b_ab_apply]
  rfl

end Cert.KernelIdeal.Payload

end
-- ==== Proof.Accum.lean ====
/-
  The accumulator, point by point.

  The kernel visits the 128 points of its 16 × 8 grid in row-major order and keeps one 1 × 1 accumulator across them.
  With `β t` the contribution of the block at point `t` (its weighted squared residuals summed, as a function of the
  six input blocks the point sees), the first point leaves `0 + β 0` (reset, then update), every later point leaves
  `previous + β t`, and the last point also copies the accumulator to the output's staging buffer.  By induction on the
  point the accumulator after point `n` holds `∑_{t ≤ n} β t`; the sum is written over `Finset.range`, with `β`
  extended by zero past the grid, so that the step from `n` to `n + 1` is `Finset.sum_range_succ`.  At the last
  point the output buffer holds the full sum over the 128 points.
-/
import proofs.«126361_j42872363549012_1_alg».proof.Proof.Pieces
import proofs.«126361_j42872363549012_1_alg».proof.Proof.Payload

noncomputable section

namespace Cert.KernelIdeal.Accum

open Cert.KernelIdeal Cert.KernelIdeal.Gen Idealize.ShloMosaic Idealize.ShloMosaic.TcCoe Idealize.SL.Sem

variable (m : (ℓ : Loc nD τ sig) → Buf (Elt Ideal) ℓ)

/-! ## The six blocks a point sees, at their literal shapes -/

/-- Word rows (512 × 256). -/
abbrev wBlk (c : Dev nD) (t : Fin cfg0.N) : FVec Ideal S512x256 .bf16 := iblk m c 0 t
/-- Context rows (1024 × 256). -/
abbrev wcBlk (c : Dev nD) (t : Fin cfg0.N) : FVec Ideal S1024x256 .bf16 := iblk m c 1 t
/-- The slice of the first bias vector (1 × 1024). -/
abbrev bBlk (c : Dev nD) (t : Fin cfg0.N) : FVec Ideal S1x1024 .f32 := iblk m c 2 t
/-- The slice of the second bias vector (1 × 1024). -/
abbrev bcBlk (c : Dev nD) (t : Fin cfg0.N) : FVec Ideal S1x1024 .f32 := iblk m c 3 t
/-- Counts (512 × 1024). -/
abbrev xBlk (c : Dev nD) (t : Fin cfg0.N) : FVec Ideal S512x1024 .f32 := iblk m c 4 t
/-- Weights (512 × 1024). -/
abbrev xwBlk (c : Dev nD) (t : Fin cfg0.N) : FVec Ideal S512x1024 .f32 := iblk m c 5 t

/-- The contribution of the block at point `t`. -/
def contrib (c : Dev nD) (t : Fin cfg0.N) : EReal :=
  Payload.blockLoss (wBlk m c t) (wcBlk m c t) (bBlk m c t) (bcBlk m c t) (xBlk m c t) (xwBlk m c t)

/-- The same by the point's number, zero past the grid. -/
def contribAt (c : Dev nD) (n : ℕ) : EReal := if h : n < cfg0.N then contrib m c ⟨n, h⟩ else 0

/-! ## One point's effect on the accumulator -/

/-- The first point: reset, then the block's contribution. -/
theorem step_first (c : Dev nD) (t : Fin cfg0.N) (h0 : t.val % 128 = 0) (h1 : ¬t.val % 128 = 127) :
    (outsAt0 m c t.val t.isLt).2 = fun _ => (0 : EReal) + contrib m c t := by
  rw [outsAt0_A m c t h0 h1]
  dsimp only
  refine (Pieces.scratch_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h))
    (wBlk m c t) (wcBlk m c t) (bBlk m c t) (bcBlk m c t) (xBlk m c t) (xwBlk m c t)).trans ?_
  rw [Payload.pay2_eq, Payload.pay1_eq]
  rfl

/-- A middle point: what the point before left, plus the block's contribution. -/
theorem step_middle (c : Dev nD) (t : Fin cfg0.N) (h0 : ¬t.val % 128 = 0) (h1 : ¬t.val % 128 = 127) :
    (outsAt0 m c t.val t.isLt).2
      = fun y => (outsAt0 m c (t.val - 1) (Nat.lt_of_le_of_lt (Nat.sub_le _ _) t.isLt)).2 y + contrib m c t := by
  rw [outsAt0_B m c t h0 h1]
  dsimp only
  refine (Pieces.scratch_middle (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h))
    (wBlk m c t) (wcBlk m c t) (bBlk m c t) (bcBlk m c t) (xBlk m c t) (xwBlk m c t) (outsAt0 m c (t.val - 1) (Nat.lt_of_le_of_lt (Nat.sub_le _ _) t.isLt)).2).trans ?_
  rw [Payload.pay2_eq]
  rfl

/-- The last point: the same update, -/
theorem step_last (c : Dev nD) (t : Fin cfg0.N) (h0 : ¬t.val % 128 = 0) (h1 : t.val % 128 = 127) :
    (outsAt0 m c t.val t.isLt).2
      = fun y => (outsAt0 m c (t.val - 1) (Nat.lt_of_le_of_lt (Nat.sub_le _ _) t.isLt)).2 y + contrib m c t := by
  rw [outsAt0_C m c t h0 h1]
  dsimp only
  refine (Pieces.scratch_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1)
    (wBlk m c t) (wcBlk m c t) (bBlk m c t) (bcBlk m c t) (xBlk m c t) (xwBlk m c t) (outsAt0 m c (t.val - 1) (Nat.lt_of_le_of_lt (Nat.sub_le _ _) t.isLt)).2).trans ?_
  rw [Payload.pay2_eq]
  rfl

/-- and the output's staging buffer then holds what the accumulator holds. -/
theorem out_last (c : Dev nD) (t : Fin cfg0.N) (h0 : ¬t.val % 128 = 0) (h1 : t.val % 128 = 127) :
    (outsAt0 m c t.val t.isLt).1 = (outsAt0 m c t.val t.isLt).2 := by
  rw [outsAt0_C m c t h0 h1]
  dsimp only
  refine (Pieces.out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1)
    (wBlk m c t) (wcBlk m c t) (bBlk m c t) (bcBlk m c t) (xBlk m c t) (xwBlk m c t) (outsAt0 m c (t.val - 1) (Nat.lt_of_le_of_lt (Nat.sub_le _ _) t.isLt)).2).trans ?_
  exact (Pieces.scratch_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1)
    (wBlk m c t) (wcBlk m c t) (bBlk m c t) (bcBlk m c t) (xBlk m c t) (xwBlk m c t) (outsAt0 m c (t.val - 1) (Nat.lt_of_le_of_lt (Nat.sub_le _ _) t.isLt)).2).symm

/-! ## The running sum -/

/-- After point `n` the accumulator holds the contributions of points `0 … n`, summed. -/
theorem acc_eq (c : Dev nD) : ∀ (n : ℕ) (hn : n < cfg0.N),
    (outsAt0 m c n hn).2 = fun _ => ∑ k ∈ Finset.range (n + 1), contribAt m c k
  | 0, hn => by
    refine (step_first m c ⟨0, hn⟩ rfl (by show ¬(0 : ℕ) % 128 = 127; decide)).trans ?_
    funext y
    rw [Finset.sum_range_one, zero_add]
    unfold contribAt
    rw [dif_pos hn]
  | n + 1, hn => by
    have hN : n + 1 < 128 := lt_of_lt_of_eq hn (show cfg0.N = 128 from N_0)
    have h0 : ¬(⟨n + 1, hn⟩ : Fin cfg0.N).val % 128 = 0 := by show ¬(n + 1) % 128 = 0; omega
    have hstep : (outsAt0 m c (n + 1) hn).2
        = fun y => (outsAt0 m c n (Nat.lt_of_succ_lt hn)).2 y + contrib m c ⟨n + 1, hn⟩ := by
      by_cases h1 : (⟨n + 1, hn⟩ : Fin cfg0.N).val % 128 = 127
      · exact step_last m c ⟨n + 1, hn⟩ h0 h1
      · exact step_middle m c ⟨n + 1, hn⟩ h0 h1
    rw [hstep, acc_eq c n (Nat.lt_of_succ_lt hn)]
    funext y
    rw [Finset.sum_range_succ _ (n + 1)]
    unfold contribAt
    rw [dif_pos hn]

/-- At the last point the output's staging buffer holds the contributions of all 128 points, summed. -/
theorem out_eq (c : Dev nD) (t : Fin cfg0.N) (h : t.val % 128 = 127) :
    (outsAt0 m c t.val t.isLt).1 = fun _ => ∑ k ∈ Finset.range 128, contribAt m c k := by
  have hN : t.val < 128 := lt_of_lt_of_eq t.isLt (show cfg0.N = 128 from N_0)
  have ht : t.val = 127 := by omega
  rw [out_last m c t (by omega) h, acc_eq m c t.val t.isLt, ht]

end Cert.KernelIdeal.Accum

end
-- ==== Proof.Spec.lean ====
/-
  The loss both programs compute, stated once over plain functions on the extended reals, and the two laws that join
  the kernel's arrangement of it to the reference's.

  For V = 8192 words with 256-feature embedding rows `W` (words) and `WC` (context words), biases `B`, `BC`,
  co-occurrence counts `X` and weights `XW`, the entry at (r, c) is
      XW[r,c] · (⟨W[r,:], WC[c,:]⟩ + B[c] + BC[c] − log X[r,c])²
  and the loss is the sum of all V² entries.  The reference adds the two biases one after the other and multiplies the
  weight in before the second factor; the kernel adds the biases to each other first and squares the residual before the
  weight multiplies it.  On the extended reals addition and multiplication are each associative (with the conventions
  ⊥ + ⊤ = ⊥ and 0 · ±∞ = 0 they form commutative monoids), so the two groupings agree entry by entry with no
  finiteness assumption (`entryK_eq`).

  The kernel does not sum the entries in one sweep: it walks a 16 × 8 grid of 512 × 1024 blocks in row-major order and
  adds each block's sum to a running total.  Since the blocks partition the V × V index square and the extended reals
  are a commutative additive monoid, the block sums add up to the full double sum (`sum_blockSum`): rows split into 16
  runs of 512, columns into 8 runs of 1024, and point n = 8·i + j of the grid owns run i of the rows and run j of the
  columns.
-/
import Idealize.ShloMosaic.PureOps.Ideal
import Idealize.ShloMosaic.Lib.ValueIdx

noncomputable section

namespace Cert.LossSpec

open Idealize.ShloMosaic Idealize.ShloMosaic.ValueIdx

/-- A V × V table: the co-occurrence counts, or their weights. -/
abbrev Table : Type := (⟨2, ![8192, 8192]⟩ : Shape).Idx → EReal
/-- V embedding rows of 256 features. -/
abbrev Rows : Type := (⟨2, ![8192, 256]⟩ : Shape).Idx → EReal
/-- One bias per word. -/
abbrev Biases : Type := (⟨1, ![8192]⟩ : Shape).Idx → EReal

/-- The inner product of word `r`'s row of `W` with context word `c`'s row of `WC`. -/
def score (W WC : Rows) (r c : Fin 8192) : EReal := ∑ k : Fin 256, W (ix2 r k) * WC (ix2 c k)

/-- One entry's weighted squared error, grouped as the reference computes it: the biases added to the score one after
    the other, the weight multiplied by the residual and the product by the residual again. -/
def entry (XW X : Table) (W WC : Rows) (B BC : Biases) (r c : Fin 8192) : EReal :=
  XW (ix2 r c) * (score W WC r c + B (ix1 c) + BC (ix1 c) - Ideal.log (X (ix2 r c)))
    * (score W WC r c + B (ix1 c) + BC (ix1 c) - Ideal.log (X (ix2 r c)))

/-- The same entry grouped as the kernel computes it: the two biases summed first, the residual squared before the
    weight multiplies it. -/
def entryK (XW X : Table) (W WC : Rows) (B BC : Biases) (r c : Fin 8192) : EReal :=
  XW (ix2 r c) * ((score W WC r c + (B (ix1 c) + BC (ix1 c)) - Ideal.log (X (ix2 r c)))
    * (score W WC r c + (B (ix1 c) + BC (ix1 c)) - Ideal.log (X (ix2 r c))))

/-- The two groupings are one extended real: associativity of `+` inside the residual, of `·` outside it. -/
theorem entryK_eq (XW X : Table) (W WC : Rows) (B BC : Biases) (r c : Fin 8192) :
    entryK XW X W WC B BC r c = entry XW X W WC B BC r c := by
  unfold entryK entry
  rw [← add_assoc, ← mul_assoc]

/-- The loss: every entry's weighted squared error, summed over the V × V square. -/
def loss (XW X : Table) (W WC : Rows) (B BC : Biases) : EReal :=
  ∑ r : Fin 8192, ∑ c : Fin 8192, entry XW X W WC B BC r c

/-! ## The square cut into the grid's blocks -/

/-- Row `p` of the block that grid point `n` (row-major in the 16 × 8 grid) covers. -/
def rowOf (n : ℕ) (hn : n < 128) (p : Fin 512) : Fin 8192 := ⟨512 * (n / 8) + p.val, by have := p.isLt; omega⟩
/-- Column `q` of that block. -/
def colOf (n : ℕ) (hn : n < 128) (q : Fin 1024) : Fin 8192 := ⟨1024 * (n % 8) + q.val, by have := q.isLt; omega⟩

/-- The sum of `f` over the block of grid point `n` (zero past the grid's last point). -/
def blockSum (f : Fin 8192 → Fin 8192 → EReal) (n : ℕ) : EReal :=
  if hn : n < 128 then ∑ p : Fin 512, ∑ q : Fin 1024, f (rowOf n hn p) (colOf n hn q) else 0

/-- A sum over `a · b` consecutive indices is the sum over `a` runs of the sums over the `b` indices of each run. -/
theorem sum_fin_runs {M : Type*} [AddCommMonoid M] (a b n : ℕ) (hab : a * b = n) (g : Fin n → M)
    (hlt : ∀ (i : Fin a) (p : Fin b), b * i.val + p.val < n) :
    ∑ r : Fin n, g r = ∑ i : Fin a, ∑ p : Fin b, g ⟨b * i.val + p.val, hlt i p⟩ := by
  subst hab
  rw [← Equiv.sum_comp finProdFinEquiv g, Fintype.sum_prod_type]
  refine Finset.sum_congr rfl fun i _ => Finset.sum_congr rfl fun p _ => congrArg g (Fin.ext ?_)
  show p.val + b * i.val = b * i.val + p.val
  exact Nat.add_comm _ _

/-- The 128 block sums add up to the double sum over the whole square. -/
theorem sum_blockSum (f : Fin 8192 → Fin 8192 → EReal) :
    ∑ n ∈ Finset.range 128, blockSum f n = ∑ r : Fin 8192, ∑ c : Fin 8192, f r c := by
  rw [← Fin.sum_univ_eq_sum_range (fun n => blockSum f n) 128]
  rw [sum_fin_runs 16 8 128 rfl _ (fun i j => by have := i.isLt; have := j.isLt; omega)]
  rw [sum_fin_runs 16 512 8192 rfl (fun r => ∑ c : Fin 8192, f r c) (fun i p => by have := i.isLt; have := p.isLt; omega)]
  refine Finset.sum_congr rfl fun i _ => ?_
  have hb : ∀ j : Fin 8, blockSum f (8 * i.val + j.val)
      = ∑ p : Fin 512, ∑ q : Fin 1024, f ⟨512 * i.val + p.val, by have := i.isLt; have := p.isLt; omega⟩
          ⟨1024 * j.val + q.val, by have := j.isLt; have := q.isLt; omega⟩ := fun j => by
    have hn : 8 * i.val + j.val < 128 := by have := i.isLt; have := j.isLt; omega
    unfold blockSum
    rw [dif_pos hn]
    refine Finset.sum_congr rfl fun p _ => Finset.sum_congr rfl fun q _ => ?_
    have hr : rowOf (8 * i.val + j.val) hn p = ⟨512 * i.val + p.val, by have := i.isLt; have := p.isLt; omega⟩ :=
      Fin.ext (by show 512 * ((8 * i.val + j.val) / 8) + p.val = 512 * i.val + p.val; have := j.isLt; omega)
    have hc : colOf (8 * i.val + j.val) hn q = ⟨1024 * j.val + q.val, by have := j.isLt; have := q.isLt; omega⟩ :=
      Fin.ext (by show 1024 * ((8 * i.val + j.val) % 8) + q.val = 1024 * j.val + q.val; have := j.isLt; omega)
    rw [hr, hc]
  simp only [hb]
  rw [Finset.sum_comm]
  refine Finset.sum_congr rfl fun p _ => ?_
  rw [sum_fin_runs 8 1024 8192 rfl (fun c => f ⟨512 * i.val + p.val, by have := i.isLt; have := p.isLt; omega⟩ c)
    (fun j q => by have := j.isLt; have := q.isLt; omega)]

end Cert.LossSpec

end
-- ==== Proof.Blocks.lean ====
/-
  The blocks a grid point sees, read off the argument arrays.

  Point `t` of the 16 × 8 grid (row-major: `t = 8·i + j`) is handed block `i` of the word rows (rows
  `512·i … 512·i + 511`), block `j` of the context rows (rows `1024·j …`), slice `j` of each bias vector, and block
  `(i, j)` of the count and weight tables.  A block's entry `y` sits in its array at coordinate
  `block index × block size + y` on every axis; the block indices as functions of `t` are decided once over the grid.
  Before the kernel runs, the two embedding tables are converted to a narrower float format — at the ideal instance
  a change of format is the identity — and each bias vector of length V is viewed as a 1 × V row, which keeps entry
  `c` at (0, c).  So each block entry is an entry of one argument array at the row and column the loss's block
  partition names (`LossSpec.rowOf`, `LossSpec.colOf`), and a point's contribution is that partition's block sum
  of the kernel-grouped entries.
-/
import proofs.«126361_j42872363549012_1_alg».proof.Proof.Accum
import proofs.«126361_j42872363549012_1_alg».proof.Proof.Spec
import Idealize.ShloMosaic.Lib.StableHlo.Run

noncomputable section

namespace Cert.KernelIdeal.Blocks

open Cert.KernelIdeal Cert.KernelIdeal.Gen Cert.KernelIdeal.Accum Idealize.ShloMosaic Idealize.ShloMosaic.TcCoe Idealize.SL.Sem
open Idealize.ShloMosaic.ValueIdx

variable (m : (ℓ : Loc nD τ sig) → Buf (Elt Ideal) ℓ)

/-! ## The arrays as the kernel finds them -/

/-- The word rows in the narrower format: at `Ideal`, the argument itself. -/
theorem V_v0 (c : Dev nD) :
    (V m c main_v0 : S8192x256.Idx → EReal) = (m ((c : Thread nD τ).loc main_arg2) : S8192x256.Idx → EReal) := by
  show StableHlo.after hostOps0 (fun b => m (c, b)) (Proc.devRef .tc main_v0) = _
  after_results
  rfl

/-- The context rows likewise. -/
theorem V_v1 (c : Dev nD) :
    (V m c main_v1 : S8192x256.Idx → EReal) = (m ((c : Thread nD τ).loc main_arg3) : S8192x256.Idx → EReal) := by
  show StableHlo.after hostOps0 (fun b => m (c, b)) (Proc.devRef .tc main_v1) = _
  after_results
  rfl

/-- The first bias vector viewed as a 1 × V row. -/
theorem V_v2 (c : Dev nD) : (V m c main_v2 : S1x8192.Idx → EReal)
    = shapeCast S1x8192 (m ((c : Thread nD τ).loc main_arg4) : S8192.Idx → EReal) shapeCasts_S8192_S1x8192 := by
  show StableHlo.after hostOps0 (fun b => m (c, b)) (Proc.devRef .tc main_v2) = _
  after_results
  rfl

/-- The second bias vector viewed as a 1 × V row. -/
theorem V_v3 (c : Dev nD) : (V m c main_v3 : S1x8192.Idx → EReal)
    = shapeCast S1x8192 (m ((c : Thread nD τ).loc main_arg5) : S8192.Idx → EReal) shapeCasts_S8192_S1x8192 := by
  show StableHlo.after hostOps0 (fun b => m (c, b)) (Proc.devRef .tc main_v3) = _
  after_results
  rfl

/-! ## Which block each window hands a point -/

/-- The block indices as functions of the point's number, decided over the grid: row blocks follow `t / 8`, column
    blocks `t % 8`. -/
theorem idx_facts : ∀ t : Fin cfg0.N,
    (win0_0.index t 0 = t.val / 8 ∧ win0_0.index t 1 = 0)
    ∧ (win0_1.index t 0 = t.val % 8 ∧ win0_1.index t 1 = 0)
    ∧ (win0_2.index t 0 = 0 ∧ win0_2.index t 1 = t.val % 8)
    ∧ (win0_3.index t 0 = 0 ∧ win0_3.index t 1 = t.val % 8)
    ∧ (win0_4.index t 0 = t.val / 8 ∧ win0_4.index t 1 = t.val % 8)
    ∧ (win0_5.index t 0 = t.val / 8 ∧ win0_5.index t 1 = t.val % 8) :=
  (by decide +kernel : ∀ t : Fin grid0.N,
    (win0_0.index t 0 = t.val / 8 ∧ win0_0.index t 1 = 0)
    ∧ (win0_1.index t 0 = t.val % 8 ∧ win0_1.index t 1 = 0)
    ∧ (win0_2.index t 0 = 0 ∧ win0_2.index t 1 = t.val % 8)
    ∧ (win0_3.index t 0 = 0 ∧ win0_3.index t 1 = t.val % 8)
    ∧ (win0_4.index t 0 = t.val / 8 ∧ win0_4.index t 1 = t.val % 8)
    ∧ (win0_5.index t 0 = t.val / 8 ∧ win0_5.index t 1 = t.val % 8))

/-! ## Each block entry as an entry of an argument array -/

/-- Entry (p, k) of the word-row block is row `rowOf t p` of `W`. -/
theorem w_at (c : Dev nD) (t : Fin cfg0.N) (hN : t.val < 128) (p : Fin 512) (k : Fin 256) :
    wBlk m c t (ix2 p k) = (m ((c : Thread nD τ).loc main_arg2) : S8192x256.Idx → EReal) (ix2 (LossSpec.rowOf t.val hN p) k) := by
  show iblk m c 0 t (ix2 p k) = _
  unfold iblk
  rw [View.read_apply]
  show (V m c main_v0 : S8192x256.Idx → EReal) _ = _
  rw [V_v0]
  refine congrArg (m ((c : Thread nD τ).loc main_arg2) : S8192x256.Idx → EReal) (funext fun a => Fin.ext ?_)
  match a with
  | ⟨0, _⟩ =>
    show win0_0.index t 0 * 512 + 1 * p.val = 512 * (t.val / 8) + p.val
    rw [(idx_facts t).1.1]; omega
  | ⟨1, _⟩ =>
    show win0_0.index t 1 * 256 + 1 * k.val = k.val
    rw [(idx_facts t).1.2]; omega

/-- Entry (q, k) of the context-row block is row `colOf t q` of `WC`. -/
theorem wc_at (c : Dev nD) (t : Fin cfg0.N) (hN : t.val < 128) (q : Fin 1024) (k : Fin 256) :
    wcBlk m c t (ix2 q k) = (m ((c : Thread nD τ).loc main_arg3) : S8192x256.Idx → EReal) (ix2 (LossSpec.colOf t.val hN q) k) := by
  show iblk m c 1 t (ix2 q k) = _
  unfold iblk
  rw [View.read_apply]
  show (V m c main_v1 : S8192x256.Idx → EReal) _ = _
  rw [V_v1]
  refine congrArg (m ((c : Thread nD τ).loc main_arg3) : S8192x256.Idx → EReal) (funext fun a => Fin.ext ?_)
  match a with
  | ⟨0, _⟩ =>
    show win0_1.index t 0 * 1024 + 1 * q.val = 1024 * (t.val % 8) + q.val
    rw [(idx_facts t).2.1.1]; omega
  | ⟨1, _⟩ =>
    show win0_1.index t 1 * 256 + 1 * k.val = k.val
    rw [(idx_facts t).2.1.2]; omega

/-- Entry (0, q) of the first bias slice is entry `colOf t q` of `B`. -/
theorem b_at (c : Dev nD) (t : Fin cfg0.N) (hN : t.val < 128) (q : Fin 1024) :
    bBlk m c t (ix2 (0 : Fin 1) q) = (m ((c : Thread nD τ).loc main_arg4) : S8192.Idx → EReal) (ix1 (LossSpec.colOf t.val hN q)) := by
  show iblk m c 2 t (ix2 (0 : Fin 1) q) = _
  unfold iblk
  rw [View.read_apply]
  show (V m c main_v2 : S1x8192.Idx → EReal) _ = _
  have e : (V m c main_v2 : S1x8192.Idx → EReal) (((cfg0.win 2).blk t).view.emb (ix2 (0 : Fin 1) q))
      = (V m c main_v2 : S1x8192.Idx → EReal) (ix2 (0 : Fin 1) (LossSpec.colOf t.val hN q)) := by
    refine congrArg (V m c main_v2 : S1x8192.Idx → EReal) (funext fun a => Fin.ext ?_)
    match a with
    | ⟨0, _⟩ =>
      show win0_2.index t 0 * 1 + 1 * 0 = 0
      rw [(idx_facts t).2.2.1.1]
    | ⟨1, _⟩ =>
      show win0_2.index t 1 * 1024 + 1 * q.val = 1024 * (t.val % 8) + q.val
      rw [(idx_facts t).2.2.1.2]; omega
  rw [e, V_v2, shapeCast_a_1a_apply]

/-- Entry (0, q) of the second bias slice is entry `colOf t q` of `BC`. -/
theorem bc_at (c : Dev nD) (t : Fin cfg0.N) (hN : t.val < 128) (q : Fin 1024) :
    bcBlk m c t (ix2 (0 : Fin 1) q) = (m ((c : Thread nD τ).loc main_arg5) : S8192.Idx → EReal) (ix1 (LossSpec.colOf t.val hN q)) := by
  show iblk m c 3 t (ix2 (0 : Fin 1) q) = _
  unfold iblk
  rw [View.read_apply]
  show (V m c main_v3 : S1x8192.Idx → EReal) _ = _
  have e : (V m c main_v3 : S1x8192.Idx → EReal) (((cfg0.win 3).blk t).view.emb (ix2 (0 : Fin 1) q))
      = (V m c main_v3 : S1x8192.Idx → EReal) (ix2 (0 : Fin 1) (LossSpec.colOf t.val hN q)) := by
    refine congrArg (V m c main_v3 : S1x8192.Idx → EReal) (funext fun a => Fin.ext ?_)
    match a with
    | ⟨0, _⟩ =>
      show win0_3.index t 0 * 1 + 1 * 0 = 0
      rw [(idx_facts t).2.2.2.1.1]
    | ⟨1, _⟩ =>
      show win0_3.index t 1 * 1024 + 1 * q.val = 1024 * (t.val % 8) + q.val
      rw [(idx_facts t).2.2.2.1.2]; omega
  rw [e, V_v3, shapeCast_a_1a_apply]

/-- Entry (p, q) of the count block is entry (`rowOf t p`, `colOf t q`) of `X`. -/
theorem x_at (c : Dev nD) (t : Fin cfg0.N) (hN : t.val < 128) (p : Fin 512) (q : Fin 1024) :
    xBlk m c t (ix2 p q) = (m ((c : Thread nD τ).loc main_arg1) : S8192x8192.Idx → EReal)
      (ix2 (LossSpec.rowOf t.val hN p) (LossSpec.colOf t.val hN q)) := by
  show iblk m c 4 t (ix2 p q) = _
  unfold iblk
  rw [View.read_apply]
  show (V m c main_arg1 : S8192x8192.Idx → EReal) _ = _
  rw [V_main_arg1]
  refine congrArg (m ((c : Thread nD τ).loc main_arg1) : S8192x8192.Idx → EReal) (funext fun a => Fin.ext ?_)
  match a with
  | ⟨0, _⟩ =>
    show win0_4.index t 0 * 512 + 1 * p.val = 512 * (t.val / 8) + p.val
    rw [(idx_facts t).2.2.2.2.1.1]; omega
  | ⟨1, _⟩ =>
    show win0_4.index t 1 * 1024 + 1 * q.val = 1024 * (t.val % 8) + q.val
    rw [(idx_facts t).2.2.2.2.1.2]; omega

/-- Entry (p, q) of the weight block is entry (`rowOf t p`, `colOf t q`) of `XW`. -/
theorem xw_at (c : Dev nD) (t : Fin cfg0.N) (hN : t.val < 128) (p : Fin 512) (q : Fin 1024) :
    xwBlk m c t (ix2 p q) = (m ((c : Thread nD τ).loc main_arg0) : S8192x8192.Idx → EReal)
      (ix2 (LossSpec.rowOf t.val hN p) (LossSpec.colOf t.val hN q)) := by
  show iblk m c 5 t (ix2 p q) = _
  unfold iblk
  rw [View.read_apply]
  show (V m c main_arg0 : S8192x8192.Idx → EReal) _ = _
  rw [V_main_arg0]
  refine congrArg (m ((c : Thread nD τ).loc main_arg0) : S8192x8192.Idx → EReal) (funext fun a => Fin.ext ?_)
  match a with
  | ⟨0, _⟩ =>
    show win0_5.index t 0 * 512 + 1 * p.val = 512 * (t.val / 8) + p.val
    rw [(idx_facts t).2.2.2.2.2.1]; omega
  | ⟨1, _⟩ =>
    show win0_5.index t 1 * 1024 + 1 * q.val = 1024 * (t.val % 8) + q.val
    rw [(idx_facts t).2.2.2.2.2.2]; omega

/-! ## A point's contribution is its block's share of the loss -/

/-- The kernel-grouped entry over the six argument arrays of core `c`. -/
abbrev entryOf (c : Dev nD) : Fin 8192 → Fin 8192 → EReal :=
  LossSpec.entryK (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))

/-- Point `n`'s contribution is the sum of the entries over the block it covers. -/
theorem contribAt_eq (c : Dev nD) (n : ℕ) : contribAt m c n = LossSpec.blockSum (entryOf m c) n := by
  have hN : cfg0.N = 128 := N_0
  unfold contribAt LossSpec.blockSum
  by_cases h : n < cfg0.N
  · have h' : n < 128 := hN ▸ h
    rw [dif_pos h, dif_pos h']
    unfold contrib Payload.blockLoss
    refine Finset.sum_congr rfl fun p _ => Finset.sum_congr rfl fun q _ => ?_
    unfold Payload.resid
    simp only [w_at m c ⟨n, h⟩ h', wc_at m c ⟨n, h⟩ h', b_at m c ⟨n, h⟩ h', bc_at m c ⟨n, h⟩ h', x_at m c ⟨n, h⟩ h',
      xw_at m c ⟨n, h⟩ h']
    rfl
  · have h' : ¬n < 128 := hN ▸ h
    rw [dif_neg h, dif_neg h']

/-- So the 128 contributions add up to the loss of the six argument arrays. -/
theorem sum_contribAt (c : Dev nD) : ∑ k ∈ Finset.range 128, contribAt m c k
    = LossSpec.loss (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  simp only [contribAt_eq]
  rw [LossSpec.sum_blockSum]
  unfold LossSpec.loss
  refine Finset.sum_congr rfl fun r _ => Finset.sum_congr rfl fun c' _ => ?_
  exact LossSpec.entryK_eq _ _ _ _ _ _ r c'

end Cert.KernelIdeal.Blocks

end
-- ==== Proof.Final.lean ====
/-
  The kernel's run, with its result named.

  The output window is a single 1 × 1 block that the pipeline writes back once, after the last grid point; there the
  staging buffer holds the accumulator, which holds the contributions of all 128 points: the loss of the six argument
  arrays.  That one block is the whole 1 × 1 output array, so the array ends at the loss.  After the kernel the program
  drops the two unit axes (a 1 × 1 array viewed as a scalar), which keeps the one entry.  So every weakly fair execution
  of the idealized kernel program ends with its result at the loss and its arguments unchanged.
-/
import proofs.«126361_j42872363549012_1_alg».proof.Proof.Blocks
import Idealize.ShloMosaic.Lib.Pipeline.Value
import Idealize.ShloMosaic.Lib.StableHlo.Run

noncomputable section

namespace Cert.KernelIdeal.Final

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The loss of core `c`'s six argument arrays. -/
abbrev lossOf (c : Dev nD) : EReal :=
  LossSpec.loss (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))

/-- What the 1 × 1 output array ends holding. -/
abbrev result (c : Dev nD) : Buf (Elt Ideal) ((c : Thread nD τ).loc main_v4) := fun _ => lossOf m c

/-- The last grid point. -/
abbrev tLast : Fin cfg0.N := ⟨127, by rw [show cfg0.N = 128 from N_0]; decide⟩

/-- The one write-back, after the last point, writes the loss: there the staging buffer holds the full sum. -/
theorem flushed_eq (c : Dev nD) (t : Fin cfg0.N) (hf : (cfg0.win 6).flush t = true) :
    (dats m 0 c).flushed 6 t = ((cfg0.win 6).blk t).view.read (Elt Ideal) (result m c) := by
  have h127 : t.val % 128 = 127 := (flush0_6 t).mp hf
  show (cfg0.win 6).cut (grid0.coords t) ((dats m 0 c).after 6 t) = _
  rw [after0_6, Accum.out_eq m c t h127, Blocks.sum_contribAt]
  funext y
  rw [View.read_apply]
  rfl

/-- The block written back after the last point is the whole 1 × 1 array, so the array ends at the loss. -/
theorem final (c : Dev nD) : (dats m 0 c).arrAt 6 cfg0.N = result m c :=
  (dats m 0 c).arrAt_eq_of_cover 6 (result m c) (flushed_eq m c) fun i =>
    ⟨tLast, (flush0_6 tLast).mpr rfl, by
      show i ∈ ((View.whole main_v4).slice (win0_6.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_6.index tLast 0 * win0_6.size 0 ≤ (i 0 : Nat) ∧ (i 0 : Nat) < win0_6.index tLast 0 * win0_6.size 0 + win0_6.xsize (grid0.coords tLast) 0
        rw [show win0_6.index tLast 0 * win0_6.size 0 = 0 from by decide +kernel, show win0_6.xsize (grid0.coords tLast) 0 = 1 from by decide +kernel]; omega
      | ⟨1, _⟩ =>
        show win0_6.index tLast 1 * win0_6.size 1 ≤ (i 1 : Nat) ∧ (i 1 : Nat) < win0_6.index tLast 1 * win0_6.size 1 + win0_6.xsize (grid0.coords tLast) 1
        rw [show win0_6.index tLast 1 * win0_6.size 1 = 0 from by decide +kernel, show win0_6.xsize (grid0.coords tLast) 1 = 1 from by decide +kernel]; omega⟩

/-- The scalar result: the 1 × 1 output array with its unit axes dropped keeps its one entry, the loss. -/
theorem tail_eq (c : Dev nD) :
    (Pipeline.afterTail₀ cfgs (dats m) 0 (V0 m) [hostOps1] c main_v5 : S_.Idx → EReal) = fun _ => lossOf m c := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v4)
      = result m c := (Pipeline.withArrays_arr spec0 launch0.win.arr_inj c _ _ 6).trans (final m c)
  rw [hw]
  rfl

/-- Every weakly fair execution of the idealized kernel program terminates with its result at the loss of its six
    argument arrays, and those arrays unchanged. -/
theorem run : θ_run defs (onTc (τ := τ) (main (F := Ideal))) ⟨m, fun _ => 0, ρ⟩ fun r => ∀ c : Dev nD,
      r.2.mem ((c.tc : Thread nD τ).loc main_v5) = (fun _ => lossOf m c : S_.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v5 (Pipeline.mem_restRefs_of main_v5 (by decide) (by decide))).trans (tail_eq m c),
      ((h c).1 5).trans (((dats m 0 c).arrAt_in 5 rfl _).trans ((A_eq m c 5).trans (V_main_arg0 m c))),
      ((h c).1 4).trans (((dats m 0 c).arrAt_in 4 rfl _).trans ((A_eq m c 4).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Final

end
-- ==== Proof.RefValue.lean ====
/-
  The reference's result is the loss.

  The reference forms the V × V score matrix `W · WCᵀ` in one contraction, adds each bias vector along the column axis
  (a length-V vector viewed as a 1 × V row and repeated down the V rows), subtracts `log X`, multiplies by the weights
  and by the residual again, and sums all V² entries from the zero word.  Read entry by entry at `Ideal` (the generated
  read-at-an-index lemmas, one operation at a time) this is the loss's entry at (r, c) — the contraction is the inner
  product of row `r` of `W` with row `c` of `WC`, each broadcast reads its vector at `c` — and the total is the zero
  word, which is the extended real 0, plus the sum over the index square, which is the double sum over rows and columns.
-/
import proofs.«126361_j42872363549012_1_alg».proof.Proof.Gen.ReferenceIdeal.Read
import proofs.«126361_j42872363549012_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The contraction's left operand index at output (r, c) and feature k is (r, k); -/
theorem lidx_eq (r c : Fin 8192) (k : Fin 256) : lidx_main_v0 (ix2 r c) k = ix2 r k :=
  funext fun a => Fin.ext (by match a with | ⟨0, _⟩ => rfl | ⟨1, _⟩ => rfl)
/-- its right operand index is (c, k). -/
theorem ridx_eq (r c : Fin 8192) (k : Fin 256) : ridx_main_v0 (ix2 r c) k = ix2 c k :=
  funext fun a => Fin.ext (by match a with | ⟨0, _⟩ => rfl | ⟨1, _⟩ => rfl)
/-- The first bias, repeated down the rows, reads its vector at the column; -/
theorem bidx_eq (r c : Fin 8192) : idx_main_v1 (idx_main_v2 (ix2 r c)) = ix1 c :=
  funext fun a => Fin.ext (by match a with | ⟨0, _⟩ => rfl)
/-- so does the second. -/
theorem bcidx_eq (r c : Fin 8192) : idx_main_v4 (idx_main_v5 (ix2 r c)) = ix1 c :=
  funext fun a => Fin.ext (by match a with | ⟨0, _⟩ => rfl)

/-- Entry (r, c) of the array the reference sums is the loss's entry there. -/
theorem entry_at (x0 x1 : (⟨S8192x8192, .f32⟩ : BufTy).Contents (Elt Ideal)) (x2 x3 : (⟨S8192x256, .f32⟩ : BufTy).Contents (Elt Ideal)) (x4 x5 : (⟨S8192, .f32⟩ : BufTy).Contents (Elt Ideal)) (r c : Fin 8192) :
    val_main_v10 (F := Ideal) x0 x1 x2 x3 x4 x5 (ix2 r c) = LossSpec.entry x0 x1 x2 x3 x4 x5 r c := by
  rw [val_main_v10_apply, val_main_v9_apply, val_main_v8_apply, val_main_v6_apply, val_main_v3_apply, val_main_v0_apply,
    val_main_v2_apply, val_main_v1_apply, val_main_v5_apply, val_main_v4_apply, val_main_v7_apply]
  simp only [lidx_eq, ridx_eq, bidx_eq, bcidx_eq]
  rfl

/-- The reference's result, at its one index, is the loss of its six arguments. -/
theorem result_eq (x0 x1 : (⟨S8192x8192, .f32⟩ : BufTy).Contents (Elt Ideal)) (x2 x3 : (⟨S8192x256, .f32⟩ : BufTy).Contents (Elt Ideal)) (x4 x5 : (⟨S8192, .f32⟩ : BufTy).Contents (Elt Ideal)) :
    val_main_v11 (F := Ideal) x0 x1 x2 x3 x4 x5 = fun _ => LossSpec.loss x0 x1 x2 x3 x4 x5 := by
  funext i
  rw [val_main_v11_apply, val_main_cst_apply]
  show Ideal.ofBits .f32 0x00000000#32 + _ = _
  rw [Ideal.ofBits_zero_f32, zero_add, sum_idx2]
  unfold LossSpec.loss
  exact Finset.sum_congr rfl fun r _ => Finset.sum_congr rfl fun c _ => entry_at x0 x1 x2 x3 x4 x5 r c

end Cert.ReferenceIdeal.RefValue

end
-- ==== Proof.lean ====
/-
  The certificate: a weighted squared-error loss over a V × V co-occurrence table, computed blockwise by a kernel and in
  one sweep by its reference, is one extended real.

  For V = 8192 words with 256-feature embedding tables `W`, `WC`, bias vectors `b`, `bc`, counts `X` and weights
  `XW`, both programs compute
      ∑_{r,c} XW[r,c] · (⟨W[r,:], WC[c,:]⟩ + b[c] + bc[c] − log X[r,c])².
  The reference forms the whole score matrix, adds the biases one after the other, and sums all V² weighted squares at
  once.  The kernel first narrows the two embedding tables' float format (the identity on exact values), then walks a
  16 × 8 grid of 512 × 1024 blocks in row-major order: per block it contracts the two embedding blocks over the feature
  axis, adds `b + bc` (summed first), subtracts the logarithm, squares, weights, sums the block, and adds that to a
  1 × 1 accumulator it zeroed at the first block; after the last block the accumulator is the output.

  Over the extended reals the two agree because addition and multiplication are associative and commutative there
  (also at ±∞, with the conventions ⊥ + ⊤ = ⊥ and 0 · ±∞ = 0), so neither the regrouping of each entry nor the regrouping of the V² terms
  into 128 block sums changes the value; no finiteness of the inputs is used.  The modules:
    Spec      the loss over plain functions; the entry's two groupings agree; the block sums add up to the double sum
    Payload   the body's stored value at the ideal instance: accumulator + the block's weighted squared residuals
    Pieces    what each of the body's three control cases leaves in the accumulator and the output buffer
    Accum     by induction over the grid points, the accumulator after point n is the sum of the first n + 1 block sums
    Blocks    each block entry is an entry of an argument array; a point's block sum is its share of the loss
    Final     the output array, the scalar result after the unit axes are dropped, and the kernel program's run
    RefValue  the reference's result, read entry by entry, is the loss
  The three frames are the generated ones (the reference's is its generated run with the result dropped); the ideal
  pass rewrote nothing, so the idealization claim is trivial.
-/
import proofs.«126361_j42872363549012_1_alg».proof.Defs
import proofs.«126361_j42872363549012_1_alg».proof.Proof.Gen.Kernel
import proofs.«126361_j42872363549012_1_alg».proof.Proof.Gen.Kernel.Skeleton
import proofs.«126361_j42872363549012_1_alg».proof.Proof.Gen.Kernel.Launch
import proofs.«126361_j42872363549012_1_alg».proof.Proof.Gen.Kernel.Points
import proofs.«126361_j42872363549012_1_alg».proof.Proof.Gen.Kernel.Frame
import proofs.«126361_j42872363549012_1_alg».proof.Proof.Gen.KernelIdeal
import proofs.«126361_j42872363549012_1_alg».proof.Proof.Gen.KernelIdeal.Skeleton
import proofs.«126361_j42872363549012_1_alg».proof.Proof.Gen.KernelIdeal.Launch
import proofs.«126361_j42872363549012_1_alg».proof.Proof.Gen.KernelIdeal.Points
import proofs.«126361_j42872363549012_1_alg».proof.Proof.Gen.KernelIdeal.Frame
import proofs.«126361_j42872363549012_1_alg».proof.Proof.Gen.ReferenceIdeal
import proofs.«126361_j42872363549012_1_alg».proof.Proof.Gen.Pre_finite_inputs
import proofs.«126361_j42872363549012_1_alg».proof.Proof.Gen.ReferenceIdeal.Run
import proofs.«126361_j42872363549012_1_alg».proof.Proof.Gen.ReferenceIdeal.Read
import proofs.«126361_j42872363549012_1_alg».proof.Proof.Final
import proofs.«126361_j42872363549012_1_alg».proof.Proof.RefValue
import Idealize.ShloMosaic.Adequacy
import Idealize.ShloMosaic.Init

noncomputable section

namespace Cert.Proof

open Idealize.ShloMosaic Idealize.SL.Sem

/-- The word-level kernel program runs, faults nowhere, and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- At `Ideal`, from memories that agree on the six arguments, the kernel program ends with the loss of its arguments
    and the reference with the loss of its own: the same extended real. -/
theorem algebraic : Cert.algebraic_KernelIdeal_ReferenceIdeal := by
  intro m ρ m' ρ' _ hagree
  refine ⟨fun c => (fun _ => Cert.KernelIdeal.Final.lossOf m c), Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v11_eq _ _ _ _ _ _).trans (Cert.ReferenceIdeal.RefValue.result_eq _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
